-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000x64 : Shape := ⟨2, ![640000, 64]⟩
abbrev S128x128 : Shape := ⟨2, ![128, 128]⟩
abbrev S128 : Shape := ⟨1, ![128]⟩
abbrev S64x128 : Shape := ⟨2, ![64, 128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x64 : S_.BroadcastsInDim S640000x64 (![] : Fin 0 → Fin S640000x64.rank)
  reducesTo_S640000x64_S_d0_1 : S640000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg8 : FVec F S128 .f32) (main_arg9 : FVec F S64x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S64x128 .f32) (main_arg6 : FVec F S128 .f32) (main_arg7 : FVec F S128x128 .f32) (main_arg8 : FVec F S128 .f32) (main_arg9 : FVec F S64x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S40000x128 .f32) (main_arg1 : IVec S2x640000 32) (main_arg2 : FVec F S640000x64 .f32) (main_arg3 : FVec F S128x128 .f32) (main_arg4 : FVec F S128 .f32) (main_arg5 : FVec F S64x128 .f32) (main_arg6 : FVec F S128 .f32) (main_arg7 : FVec F S128x128 .f32) (main_arg8 : FVec F S128 .f32) (main_arg9 : FVec F S64x128 .f32) (main_arg10 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x64 .f32 := Host.absf main_arg2
  let main_cst_0 : FVec F S_ .f32 := constant S_ .f32 0x7F800000#32
  let main_v5 : FVec F S640000x64 .f32 := broadcastInDim S640000x64 ![] bcast_S_S640000x64 main_cst_0
  let main_v6 : IVec S640000x64 1 := cmpf .olt main_v4 main_v5
  let main_c_1 : IVec S_ 1 := constantI S_ 1 1#1
  let main_v7 : IVec S_ 1 := (fun x v => Host.reduce IntOp.andi x v reducesTo_S640000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S40000x128 : Shape := ⟨2, ![40000, 128]⟩
abbrev S2x640000 : Shape := ⟨2, ![2, 640000]⟩
abbrev S640000x64 : Shape := ⟨2, ![640000, 64]⟩
abbrev S128x128 : Shape := ⟨2, ![128, 128]⟩
abbrev S128 : Shape := ⟨1, ![128]⟩
abbrev S64x128 : Shape := ⟨2, ![64, 128]⟩
abbrev S1x640000 : Shape := ⟨2, ![1, 640000]⟩
abbrev S640000 : Shape := ⟨1, ![640000]⟩
abbrev S1x128 : Shape := ⟨2, ![1, 128]⟩
abbrev S5000x128 : Shape := ⟨2, ![5000, 128]⟩
abbrev S640000x128 : Shape := ⟨2, ![640000, 128]⟩
abbrev S10000x64 : Shape := ⟨2, ![10000, 64]⟩
abbrev S10000x128 : Shape := ⟨2, ![10000, 128]⟩
abbrev S_ : Shape := ⟨0, ![]⟩
abbrev S640000x1 : Shape := ⟨2, ![640000, 1]⟩
abbrev S40000 : Shape := ⟨1, ![40000]⟩
abbrev S40000x1 : Shape := ⟨2, ![40000, 1]⟩

abbrev nBuf : Space → Nat
  | .hbm => 67
  | .vmem => 24
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x64, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S64x128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S1x128, .f32⟩
  | .hbm, ⟨16, _⟩ => ⟨S40000x128, .f32⟩
  | .hbm, ⟨17, _⟩ => ⟨S1x128, .f32⟩
  | .hbm, ⟨18, _⟩ => ⟨S640000x128, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S640000x128, .f32⟩
  | .hbm, ⟨29, _⟩ => ⟨S_, .f32⟩
  | .hbm, ⟨30, _⟩ => ⟨S40000x128, .f32⟩
  | .hbm, ⟨31, _⟩ => ⟨S640000x1, .i32⟩
  | .hbm, ⟨32, _⟩ => ⟨S40000x128, .f32⟩
  | .hbm, ⟨33, _⟩ => ⟨S_, .f32⟩
  | .hbm, ⟨34, _⟩ => ⟨S40000x128, .f32⟩
  | .hbm, ⟨35, _⟩ => ⟨S40000x128, .f32⟩
  | .hbm, ⟨36, _⟩ => ⟨S1x128, .f32⟩
  | .hbm, ⟨37, _⟩ => ⟨S40000x128, .f32⟩
  | .hbm, ⟨38, _⟩ => ⟨S1x128, .f32⟩
  | .hbm, ⟨39, _⟩ => ⟨S640000x128, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .f32⟩
  | .hbm, ⟨49, _⟩ => ⟨S640000x128, .f32⟩
  | .hbm, ⟨50, _⟩ => ⟨S_, .f32⟩
  | .hbm, ⟨51, _⟩ => ⟨S40000x128, .f32⟩
  | .hbm, ⟨52, _⟩ => ⟨S640000x1, .i32⟩
  | .hbm, ⟨53, _⟩ => ⟨S40000x128, .f32⟩
  | .hbm, ⟨54, _⟩ => ⟨S_, .f32⟩
  | .hbm, ⟨55, _⟩ => ⟨S40000, .f32⟩
  | .hbm, ⟨56, _⟩ => ⟨S_, .f32⟩
  | .hbm, ⟨57, _⟩ => ⟨S40000, .f32⟩
  | .hbm, ⟨58, _⟩ => ⟨S40000, .i1⟩
  | .hbm, ⟨59, _⟩ => ⟨S40000x1, .i1⟩
  | .hbm, ⟨60, _⟩ => ⟨S_, .f32⟩
  | .hbm, ⟨61, _⟩ => ⟨S_, .f32⟩
  | .hbm, ⟨62, _⟩ => ⟨S40000x128, .i1⟩
  | .hbm, ⟨63, _⟩ => ⟨S40000x128, .f32⟩
  | .hbm, ⟨64, _⟩ => ⟨S40000x128, .f32⟩
  | .hbm, ⟨65, _⟩ => ⟨S_, .f32⟩
  | .hbm, ⟨66, _⟩ => ⟨S128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S10000x64, .f32⟩
  | .local _ .vmem, ⟨7, _⟩ => ⟨S10000x64, .f32⟩
  | .local _ .vmem, ⟨8, _⟩ => ⟨S64x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S10000x64, .f32⟩
  | .local _ .vmem, ⟨19, _⟩ => ⟨S10000x64, .f32⟩
  | .local _ .vmem, ⟨20, _⟩ => ⟨S64x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_1 : Ref sig .tc := ⟨.hbm, 40, rfl⟩
abbrev main_v24 : Ref sig .tc := ⟨.hbm, 41, rfl⟩
abbrev main_v25 : Ref sig .tc := ⟨.hbm, 42, rfl⟩
abbrev main_c_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S10000x64_S10000x64_0_0 : ∀ a, (![0, 0] : Fin 2 → Nat) a + S10000x64.size a ≤ S10000x64.size a
  h_S10000x64 : 0 < S10000x64.numel
  inb_S64x128_S64x128_0_0 : ∀ a, (![0, 0] : Fin 2 → Nat) a + S64x128.size a ≤ S64x128.size a
  h_S64x128 : 0 < S64x128.numel
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  shapeCasts_S5000x128_S5000x128 : S5000x128.ShapeCasts S5000x128
  reducesTo_S40000x128_S40000_d1 : S40000x128.ReducesTo [1] S40000
  h_S_ : 0 < S_.numel
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  reducesTo_S40000x128_S128_d0 : S40000x128.ReducesTo [0] S128
  dot_S5000x128_S128x128_S5000x128_1_0_0_1_n_n_wf : DotDims.WF S5000x128 S128x128 S5000x128 [1] [0] [0] [1] [] []
  dot_S10000x64_S64x128_S10000x128_1_0_0_1_n_n_wf : DotDims.WF S10000x64 S64x128 S10000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S40000x128.size a
  hwx0_3 : ∀ i : grid0.Coords, EltTy.bits .f32 = 32 ∨ (Rect.block (s := S40000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S640000x64.size a
  hwx1_0 : ∀ i : grid1.Coords, EltTy.bits .f32 = 32 ∨ (Rect.block (s := S640000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S640000x128.size a
  hwx1_3 : ∀ i : grid1.Coords, EltTy.bits .f32 = 32 ∨ (Rect.block (s := S640000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S40000x128.size a
  hwx2_3 : ∀ i : grid2.Coords, EltTy.bits .f32 = 32 ∨ (Rect.block (s := S40000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S640000x64.size a
  hwx3_0 : ∀ i : grid3.Coords, EltTy.bits .f32 = 32 ∨ (Rect.block (s := S640000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S640000x128.size a
  hwx3_3 : ∀ i : grid3.Coords, EltTy.bits .f32 = 32 ∨ (Rect.block (s := S640000x128) S10000x128.size (cc3_transform_3 i) (hinb3_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v19) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg2) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v22) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v23) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000x64 : Shape := ⟨2, ![640000, 64]⟩
abbrev S128x128 : Shape := ⟨2, ![128, 128]⟩
abbrev S128 : Shape := ⟨1, ![128]⟩
abbrev S64x128 : Shape := ⟨2, ![64, 128]⟩
abbrev S1x128 : Shape := ⟨2, ![1, 128]⟩
abbrev S640000x128 : Shape := ⟨2, ![640000, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S40000 : Shape := ⟨1, ![40000]⟩
abbrev S40000x1 : Shape := ⟨2, ![40000, 1]⟩

abbrev nBuf : Space → Nat
  | .hbm => 79
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x64, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S64x128, .f32⟩
  | .hbm, ⟨10, _⟩ => ⟨S128, .f32⟩
  | .hbm, ⟨11, _⟩ => ⟨S40000x128, .f32⟩
  | .hbm, ⟨12, _⟩ => ⟨S1x128, .f32⟩
  | .hbm, ⟨13, _⟩ => ⟨S40000x128, .f32⟩
  | .hbm, ⟨14, _⟩ => ⟨S40000x128, .f32⟩
  | .hbm, ⟨15, _⟩ => ⟨S640000x128, .f32⟩
  | .hbm, ⟨16, _⟩ => ⟨S1x128, .f32⟩
  | .hbm, ⟨17, _⟩ => ⟨S640000x128, .f32⟩
  | .hbm, ⟨18, _⟩ => ⟨S640000x128, .f32⟩
  | .hbm, ⟨19, _⟩ => ⟨S1x640000, .i32⟩
  | .hbm, ⟨20, _⟩ => ⟨S640000, .i32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S640000x128, .f32⟩
  | .hbm, ⟨31, _⟩ => ⟨S1x640000, .i32⟩
  | .hbm, ⟨32, _⟩ => ⟨S640000, .i32⟩
  | .hbm, ⟨33, _⟩ => ⟨S_, .f32⟩
  | .hbm, ⟨34, _⟩ => ⟨S40000x128, .f32⟩
  | .hbm, ⟨35, _⟩ => ⟨S640000x1, .i32⟩
  | .hbm, ⟨36, _⟩ => ⟨S40000x128, .f32⟩
  | .hbm, ⟨37, _⟩ => ⟨S_, .f32⟩
  | .hbm, ⟨38, _⟩ => ⟨S40000x128, .f32⟩
  | .hbm, ⟨39, _⟩ => ⟨S40000x128, .f32⟩
  | .hbm, ⟨40, _⟩ => ⟨S40000x128, .f32⟩
  | .hbm, ⟨41, _⟩ => ⟨S1x128, .f32⟩
  | .hbm, ⟨42, _⟩ => ⟨S40000x128, .f32⟩
  | .hbm, ⟨43, _⟩ => ⟨S40000x128, .f32⟩
  | .hbm, ⟨44, _⟩ => ⟨S640000x128, .f32⟩
  | .hbm, ⟨45, _⟩ => ⟨S1x128, .f32⟩
  | .hbm, ⟨46, _⟩ => ⟨S640000x128, .f32⟩
  | .hbm, ⟨47, _⟩ => ⟨S640000x128, .f32⟩
  | .hbm, ⟨48, _⟩ => ⟨S1x640000, .i32⟩
  | .hbm, ⟨49, _⟩ => ⟨S640000, .i32⟩
  | .hbm, ⟨50, _⟩ => ⟨S_, .i32⟩
  | .hbm, ⟨51, _⟩ => ⟨S640000, .i32⟩
  | .hbm, ⟨52, _⟩ => ⟨S640000, .i1⟩
  | .hbm, ⟨53, _⟩ => ⟨S_, .i32⟩
  | .hbm, ⟨54, _⟩ => ⟨S640000, .i32⟩
  | .hbm, ⟨55, _⟩ => ⟨S640000, .i32⟩
  | .hbm, ⟨56, _⟩ => ⟨S640000, .i32⟩
  | .hbm, ⟨57, _⟩ => ⟨S640000x1, .i32⟩
  | .hbm, ⟨58, _⟩ => ⟨S640000x128, .f32⟩
  | .hbm, ⟨59, _⟩ => ⟨S640000x128, .f32⟩
  | .hbm, ⟨60, _⟩ => ⟨S1x640000, .i32⟩
  | .hbm, ⟨61, _⟩ => ⟨S640000, .i32⟩
  | .hbm, ⟨62, _⟩ => ⟨S_, .f32⟩
  | .hbm, ⟨63, _⟩ => ⟨S40000x128, .f32⟩
  | .hbm, ⟨64, _⟩ => ⟨S640000x1, .i32⟩
  | .hbm, ⟨65, _⟩ => ⟨S40000x128, .f32⟩
  | .hbm, ⟨66, _⟩ => ⟨S_, .f32⟩
  | .hbm, ⟨67, _⟩ => ⟨S40000, .f32⟩
  | .hbm, ⟨68, _⟩ => ⟨S_, .f32⟩
  | .hbm, ⟨69, _⟩ => ⟨S40000, .f32⟩
  | .hbm, ⟨70, _⟩ => ⟨S40000, .i1⟩
  | .hbm, ⟨71, _⟩ => ⟨S40000x1, .i1⟩
  | .hbm, ⟨72, _⟩ => ⟨S_, .f32⟩
  | .hbm, ⟨73, _⟩ => ⟨S_, .f32⟩
  | .hbm, ⟨74, _⟩ => ⟨S40000x128, .i1⟩
  | .hbm, ⟨75, _⟩ => ⟨S40000x128, .f32⟩
  | .hbm, ⟨76, _⟩ => ⟨S40000x128, .f32⟩
  | .hbm, ⟨77, _⟩ => ⟨S_, .f32⟩
  | .hbm, ⟨78, _⟩ => ⟨S128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_1 : Ref sig .tc := ⟨.hbm, 50, rfl⟩
abbrev main_v34 : Ref sig .tc := ⟨.hbm, 51, rfl⟩
abbrev main_v35 : Ref sig .tc := ⟨.hbm, 52, rfl⟩
abbrev main_c_2 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_3 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_4 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v51 : Ref sig .tc := ⟨.hbm, 76, rfl⟩
abbrev main_cst_7 : Ref sig .tc := ⟨.hbm, 77, rfl⟩
abbrev main_v52 : Ref sig .tc := ⟨.hbm, 78, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S1x128_S640000x128_0_1 : S1x128.BroadcastsInDim S640000x128 (![0, 1] : Fin 2 → Fin S640000x128.rank)
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  bcast_S640000_S640000x1_0 : S640000.BroadcastsInDim S640000x1 (![0] : Fin 1 → Fin S640000x1.rank)
  slices_S2x640000_S1x640000_1_0 : S2x640000.Slices ![1, 0] S1x640000
  bcast_S_S40000x128 : S_.BroadcastsInDim S40000x128 (![] : Fin 0 → Fin S40000x128.rank)
  reducesTo_S40000x128_S40000_d1 : S40000x128.ReducesTo [1] S40000
  h_S_ : 0 < S_.numel
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  reducesTo_S40000x128_S128_d0 : S40000x128.ReducesTo [0] S128
  dot_S40000x128_S128x128_S40000x128_1_0_0_1_n_n_wf : DotDims.WF S40000x128 S128x128 S40000x128 [1] [0] [0] [1] [] []
  dot_S640000x64_S64x128_S640000x128_1_0_0_1_n_n_wf : DotDims.WF S640000x64 S64x128 S640000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S640000x64_S64x128_S640000x128_1_0_0_1_n_n : DotDims S640000x64 S64x128 S640000x128 where
  lhsContracting := [1]
  rhsContracting := [0]
  lhsNonContracting := [0]
  rhsNonContracting := [1]
  lhsBatch := []
  rhsBatch := []
  wf := dot_S640000x64_S64x128_S640000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

class Facts : Prop extends Facts₀ where

variable [Facts]
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.LibCastBcast.lean ====
/-
  A rank-1 array recast as a one-column or a one-row matrix is the same array as the one
  `broadcast_in_dim` makes of it along that axis: both read, at every index, the vector's entry at the
  index's one non-unit coordinate.
-/
import Idealize.ShloMosaic.Lib.Pipeline.Value
import Idealize.ShloMosaic.Lib.ValueIdx

namespace Cert.LibCastBcast

open Idealize.ShloMosaic Idealize.ShloMosaic.ValueIdx

variable {α : Type}

/-- An `[a]` vector recast to the column `[a, 1]` is its `broadcast_in_dim` along axis 0. -/
theorem column_cast_eq_bcast {a : ℕ} (x : (⟨1, ![a]⟩ : Shape).Idx → α)
    (h : (⟨1, ![a]⟩ : Shape).ShapeCasts ⟨2, ![a, 1]⟩)
    (h' : (⟨1, ![a]⟩ : Shape).BroadcastsInDim (⟨2, ![a, 1]⟩ : Shape) ![0]) :
    shapeCast ⟨2, ![a, 1]⟩ x h = broadcastInDim (⟨2, ![a, 1]⟩ : Shape) ![0] h' x := by
  funext j
  obtain ⟨p, u, rfl⟩ : ∃ (p : Fin a) (u : Fin 1), j = ix2 p u := ⟨j 0, j 1, eq_ix2 j⟩
  have hu : u.val = 0 := by omega
  refine (shapeCast_apply x h _ (ix1 p) ?_).trans (broadcastInDim_apply _ h' x _ (ix1 p) fun ax => ?_).symm
  · rw [Shape.rowMajor_val_two, Shape.rowMajor_val_one]
    show p.val = p.val * 1 + u.val
    rw [hu, Nat.mul_one, Nat.add_zero]
  · match ax with
    | ⟨0, _⟩ =>
      show p.val = if a = 1 then 0 else p.val
      split
      · have := p.isLt; omega
      · rfl

/-- A `[b]` vector recast to the row `[1, b]` is its `broadcast_in_dim` along axis 1. -/
theorem row_cast_eq_bcast {b : ℕ} (x : (⟨1, ![b]⟩ : Shape).Idx → α)
    (h : (⟨1, ![b]⟩ : Shape).ShapeCasts ⟨2, ![1, b]⟩)
    (h' : (⟨1, ![b]⟩ : Shape).BroadcastsInDim (⟨2, ![1, b]⟩ : Shape) ![1]) :
    shapeCast ⟨2, ![1, b]⟩ x h = broadcastInDim (⟨2, ![1, b]⟩ : Shape) ![1] h' x := by
  funext j
  obtain ⟨u, q, rfl⟩ : ∃ (u : Fin 1) (q : Fin b), j = ix2 u q := ⟨j 0, j 1, eq_ix2 j⟩
  have hu : u.val = 0 := by omega
  refine (shapeCast_apply x h _ (ix1 q) ?_).trans (broadcastInDim_apply _ h' x _ (ix1 q) fun ax => ?_).symm
  · rw [Shape.rowMajor_val_two, Shape.rowMajor_val_one]
    show q.val = u.val * b + q.val
    rw [hu, Nat.zero_mul, Nat.zero_add]
  · match ax with
    | ⟨0, _⟩ =>
      show q.val = if b = 1 then 0 else q.val
      split
      · have := q.isLt; omega
      · rfl

end Cert.LibCastBcast
-- ==== Proof.Affine.lean ====
/-
  One affine layer, entry by entry. For x of R rows and K columns, w of K rows and C columns and a bias kept as a
  one-row matrix b, the layer's value at (r, c) is

      Σ_k x(r, k) · w(k, c) + b(0, c)        over the extended reals.

  Two texts compute it. The tiled one rounds x and w to a narrower float format (the identity on extended reals),
  multiplies into a zero accumulator and adds the bias row broadcast down the rows. The plain one takes the host's
  matrix product and adds a rank-1 bias broadcast first to a row and then down the rows. Both are read here at an
  entry and shown to be that sum; neither step needs the operands to be finite (0 + s = s and the order of the two
  summands is kept).
-/
import Idealize.ShloMosaic.PureOps.Ideal
import Idealize.ShloMosaic.PureOps.Ideal.Laws
import Idealize.ShloMosaic.Lib.ValueIdx
import Idealize.ShloMosaic.Lib.Pipeline.Value
import proofs.«180068_j22153441313372_1_alg».proof.Proof.LibDot
import proofs.«180068_j22153441313372_1_alg».proof.Proof.LibCastBcast

noncomputable section

open scoped BigOperators

namespace Cert.Affine

open Idealize.ShloMosaic Idealize.ShloMosaic.ValueIdx

/-- The layer's value: the product's entry plus the bias row's entry of that column. -/
def affine {R K C : Nat} (x : FVec Ideal ⟨2, ![R, K]⟩ .f32) (w : FVec Ideal ⟨2, ![K, C]⟩ .f32)
    (b : FVec Ideal ⟨2, ![1, C]⟩ .f32) : FVec Ideal ⟨2, ![R, C]⟩ .f32 :=
  fun i => (∑ k : Fin K, x (ix2 (i 0) k) * w (ix2 k (i 1))) + b (ix2 0 (i 1))

theorem affine_at {R K C : Nat} (x : FVec Ideal ⟨2, ![R, K]⟩ .f32) (w : FVec Ideal ⟨2, ![K, C]⟩ .f32)
    (b : FVec Ideal ⟨2, ![1, C]⟩ .f32) (r : Fin R) (c : Fin C) :
    affine x w b (ix2 r c) = (∑ k : Fin K, x (ix2 r k) * w (ix2 k c)) + b (ix2 0 c) := rfl

/-- The bias row broadcast down R rows, read at (r, c), is the row's entry at column c. -/
theorem bias_rows_at {R C : Nat} (b : FVec Ideal ⟨2, ![1, C]⟩ .f32)
    (hbc : (⟨2, ![1, C]⟩ : Shape).Broadcasts ⟨2, ![R, C]⟩) (r : Fin R) (c : Fin C) :
    broadcastTo ⟨2, ![R, C]⟩ b hbc (ix2 r c) = b (ix2 0 c) := by
  refine broadcastTo_apply b hbc _ _ fun a => ?_
  match a with
  | ⟨0, _⟩ => rfl
  | ⟨1, _⟩ =>
    show c.val = if C = 1 then 0 else c.val
    split
    · have := c.isLt; omega
    · rfl

/-- The tiled text at an entry: rounding both operands to the narrower format, the product into zero, the bias row
    (recast to its own shape) broadcast down the rows, the sum. -/
theorem tiled_at {R K C : Nat} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ .f32) (w : FVec Ideal ⟨2, ![K, C]⟩ .f32) (b : FVec Ideal ⟨2, ![1, C]⟩ .f32)
    (hb : FTy.bf16.bits < FTy.f32.bits) (hsc : (⟨2, ![1, C]⟩ : Shape).ShapeCasts ⟨2, ![1, C]⟩)
    (hbc : (⟨2, ![1, C]⟩ : Shape).Broadcasts ⟨2, ![R, C]⟩) (r : Fin R) (c : Fin C) :
    addf (matmul d none (truncf .bf16 x hb) (truncf .bf16 w hb) (constant ⟨2, ![R, C]⟩ .f32 0x00000000#32))
        (broadcastTo ⟨2, ![R, C]⟩ (shapeCast ⟨2, ![1, C]⟩ b hsc) hbc) (ix2 r c)
      = affine x w b (ix2 r c) := by
  rw [affine_at, addf_apply, shapeCast_self, bias_rows_at]
  refine congrArg (· + b (ix2 0 c)) ?_
  exact LibDot.matmul_zero_at d hl hr hln hrn hlb hrb none (truncf .bf16 x hb) (truncf .bf16 w hb) r c

/-- The plain text as a whole array: the host's product plus the rank-1 bias broadcast to a row and then down the
    rows is the layer's value at the bias recast to a one-row matrix. -/
theorem plain_eq {R K C : Nat} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ .f32) (w : FVec Ideal ⟨2, ![K, C]⟩ .f32) (b : FVec Ideal ⟨1, ![C]⟩ .f32)
    (h1 : (⟨1, ![C]⟩ : Shape).BroadcastsInDim (⟨2, ![1, C]⟩ : Shape) ![1])
    (h2 : (⟨2, ![1, C]⟩ : Shape).BroadcastsInDim (⟨2, ![R, C]⟩ : Shape) ![0, 1])
    (hsc : (⟨1, ![C]⟩ : Shape).ShapeCasts ⟨2, ![1, C]⟩) :
    addf (Host.dotGeneral d none x w)
        (broadcastInDim (⟨2, ![R, C]⟩ : Shape) ![0, 1] h2 (broadcastInDim (⟨2, ![1, C]⟩ : Shape) ![1] h1 b))
      = affine x w (shapeCast ⟨2, ![1, C]⟩ b hsc) := by
  funext j
  obtain ⟨r, c, rfl⟩ : ∃ (r : Fin R) (c : Fin C), j = ix2 r c := ⟨j 0, j 1, eq_ix2 j⟩
  rw [affine_at, addf_apply, LibCastBcast.row_cast_eq_bcast b hsc h1]
  refine congrArg₂ (· + ·) (LibDot.dotGeneral_at d hl hr hln hrn hlb hrb none HostSchedule.single x w r c) ?_
  refine broadcastInDim_apply _ h2 _ _ (ix2 0 c) fun a => ?_
  match a with
  | ⟨0, _⟩ => rfl
  | ⟨1, _⟩ =>
    show c.val = if C = 1 then 0 else c.val
    split
    · have := c.isLt; omega
    · rfl

end Cert.Affine

end
-- ==== Proof.GlueKernel.lean ====
/-
  The host side of the network that both programs share, as three functions of whole arrays (here over the tiled program's own shape names and dimension records).

  conv h e ei : one round of message passing. With src = ei[0, ·] and dst = ei[1, ·] (a negative source index is
      first shifted up by the number of nodes, 40000), edge j carries the message h[src j, ·] + e[j, ·], and node n
      receives the sum of the messages of the edges whose target is n, added into zeros.
  relu x      : the entrywise maximum with zero.
  pool x      : a node whose row is not constant (its largest entry differs from its smallest) keeps its row, any
      other node's row is replaced by zeros, and the rows are summed: one number per feature.
-/
import proofs.«180068_j22153441313372_1_alg».proof.Proof.Gen.KernelIdeal
import Idealize.ShloMosaic.PureOps.Ideal

noncomputable section

namespace Cert.KernelIdeal.Glue

open Idealize.ShloMosaic Cert.KernelIdeal Cert.KernelIdeal.Gen

/-- The source column of the edge list, negative entries shifted up by the node count. -/
def srcIdx (ei : IVec S2x640000 32) : IVec S640000 32 :=
  select (cmpi .slt (shapeCast _ (extractStridedSlice S1x640000 ![0, 0] ei slices_S2x640000_S1x640000_0_0) shapeCasts_S1x640000_S640000) (broadcastInDim S640000 ![] bcast_S_S640000 (constantI S_ 32 0#32))) (addi (shapeCast _ (extractStridedSlice S1x640000 ![0, 0] ei slices_S2x640000_S1x640000_0_0) shapeCasts_S1x640000_S640000) (broadcastInDim S640000 ![] bcast_S_S640000 (constantI S_ 32 40000#32))) (shapeCast _ (extractStridedSlice S1x640000 ![0, 0] ei slices_S2x640000_S1x640000_0_0) shapeCasts_S1x640000_S640000)

/-- The target column of the edge list. -/
def dstIdx (ei : IVec S2x640000 32) : IVec S640000 32 :=
  shapeCast _ (extractStridedSlice S1x640000 ![1, 0] ei slices_S2x640000_S1x640000_1_0) shapeCasts_S1x640000_S640000

/-- One round of message passing: gather the node rows at the sources, add the edge rows, scatter-add at the targets. -/
def conv (h : FVec Ideal S40000x128 .f32) (e : FVec Ideal S640000x128 .f32)
    (ei : IVec S2x640000 32) : FVec Ideal S40000x128 .f32 :=
  Host.scatterAdd (F := Ideal) scatter_S40000x128_S640000x1_S640000x128_1_0_0_1 (broadcastInDim S40000x128 ![] bcast_S_S40000x128 (constant S_ .f32 0x00000000#32)) (broadcastInDim S640000x1 ![0] bcast_S640000_S640000x1_0 (dstIdx ei)) (addf (Host.gather gather_S40000x128_S640000x1_S640000x128_1_0_n_n_0_1_1128 h (broadcastInDim S640000x1 ![0] bcast_S640000_S640000x1_0 (srcIdx ei))) e)

/-- The entrywise maximum with zero. -/
def relu (x : FVec Ideal S40000x128 .f32) : FVec Ideal S40000x128 .f32 :=
  maximumf (F := Ideal) x (broadcastInDim S40000x128 ![] bcast_S_S40000x128 (constant S_ .f32 0x00000000#32))

/-- Rows that are not constant are kept, the others zeroed, and the rows summed. -/
def pool (x : FVec Ideal S40000x128 .f32) : FVec Ideal S128 .f32 :=
  Host.reduceAdd (F := Ideal) (select (broadcastInDim S40000x128 ![0, 1] bcast_S40000x1_S40000x128_0_1 (broadcastInDim S40000x1 ![0] bcast_S40000_S40000x1_0 (cmpf .une (Host.reduce FloatOps.maximumf x (constant S_ .f32 0xFF800000#32) reducesTo_S40000x128_S40000_d1 h_S_) (Host.reduce FloatOps.minimumf x (constant S_ .f32 0x7F800000#32) reducesTo_S40000x128_S40000_d1 h_S_)))) x (broadcastInDim S40000x128 ![] bcast_S_S40000x128 (id (constant S_ .f32 0x00000000#32)))) (constant S_ .f32 0x00000000#32) reducesTo_S40000x128_S128_d0 h_S_

end Cert.KernelIdeal.Glue

end
-- ==== Proof.Region0.lean ====
/-
  The affine layer of the program's region 0, from row blocks to the whole array.

  The layer out = x·w + bias runs over a grid of 8 points. Point t takes the 5000 rows of x that begin at row 5000·t,
  all of w and the whole bias row, and writes the 5000 rows of the result that begin at row 5000·t. Entry (r, c) of the
  layer needs row r of x, column c of w and entry c of the bias row, and nothing else: so what point t writes is its
  5000 rows of the layer of the WHOLE x. The row blocks fill the 40000 rows (row r lies in the block of point
  r / 5000), so the result array ends holding the layer of x, w and the bias row as the region finds them.
-/
import proofs.«180068_j22153441313372_1_alg».proof.Proof.Gen.KernelIdeal.Frame
import proofs.«180068_j22153441313372_1_alg».proof.Proof.Affine
import Idealize.ShloMosaic.Lib.Pipeline.Value
import Idealize.ShloMosaic.Lib.ValueIdx

set_option maxRecDepth 16384

noncomputable section

namespace Cert.KernelIdeal.Region0

open Idealize.ShloMosaic Idealize.ShloMosaic.TcCoe
open Idealize.ShloMosaic.Pipeline (Dat Cfg Window)
open Cert.KernelIdeal Cert.KernelIdeal.Gen Idealize.ShloMosaic.ValueIdx
open scoped BigOperators

/-- The body reads and writes its blocks from their first entry. -/
theorem zero_offsets : (![0, 0] : Fin 2 → Nat) = fun _ => 0 := funext fun a => by fin_cases a <;> rfl

/-- Where each window's block sits at grid point t: x's and the result's are row block t, w and the bias row are the
    one block there is. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What the body stores, at an entry, is the layer of the three blocks it loaded: a recast of an array to its own
    shape is the array, and what is left is the tiled text of the layer. -/
theorem layer_at (x0 : Vec Ideal S5000x128 .f32) (x1 : Vec Ideal S128x128 .f32) (x2 : Vec Ideal S1x128 .f32)
    (p : Fin 5000) (q : Fin 128) :
    k0_pay1 x0 x1 x2 (ix2 p q) = Cert.Affine.affine x0 x1 x2 (ix2 p q) := by
  unfold k0_pay1
  simpa only [shapeCast_self] using
    Cert.Affine.tiled_at dot_S5000x128_S128x128_S5000x128_1_0_0_1_n_n rfl rfl rfl rfl rfl rfl
      x0 x1 x2 bitsLt_bf16_f32 shapeCasts_S1x128_S1x128 broadcasts_S1x128_S5000x128 p q

/-- The layer of a row block, at (p, q), is the layer of the whole x at entry i, once row p of the block is row i 0 of
    x, column q of the block's w is column i 1 of w, and the bias entries agree. -/
theorem layer_of_block (X : Vec Ideal S40000x128 .f32) (W : Vec Ideal S128x128 .f32) (B : Vec Ideal S1x128 .f32)
    (x0 : Vec Ideal S5000x128 .f32) (x1 : Vec Ideal S128x128 .f32) (x2 : Vec Ideal S1x128 .f32)
    (p : Fin 5000) (q : Fin 128) (i : S40000x128.Idx)
    (hx : ∀ k : Fin 128, x0 (ix2 p k) = X (ix2 (i 0) k))
    (hw : ∀ k : Fin 128, x1 (ix2 k q) = W (ix2 k (i 1)))
    (hb : x2 (ix2 0 q) = B (ix2 0 (i 1))) :
    Cert.Affine.affine x0 x1 x2 (ix2 p q) = Cert.Affine.affine X W B i := by
  show (∑ k : Fin 128, x0 (ix2 p k) * x1 (ix2 k q)) + x2 (ix2 0 q)
      = (∑ k : Fin 128, X (ix2 (i 0) k) * W (ix2 k (i 1))) + B (ix2 0 (i 1))
  rw [hb]
  exact congrArg (· + B (ix2 0 (i 1))) (Finset.sum_congr rfl fun k _ => by rw [hx k, hw k])

/-- What grid point t writes back is its row block of the layer of the whole arrays. -/
theorem block_written (V : (c : Dev nD) → (b : Ref sig .tc) → Buf (Elt Ideal) ((c : Thread nD τ).loc b)) (c : Dev nD)
    (t : Fin cfg0.N) :
    (dat0 (F := Ideal) V c).flushed 3 t
      = ((cfg0.win 3).blk t).view.read (Elt Ideal)
          (Cert.Affine.affine (V c main_arg0) (V c main_arg3) (V c main_v4)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31⟩ := block_indices t
  funext j
  obtain ⟨p, q, rfl⟩ : ∃ (p : Fin 5000) (q : Fin 128), j = ix2 p q := ⟨j 0, j 1, eq_ix2 j⟩
  refine (layer_at _ _ _ p q).trans ?_
  refine layer_of_block (V c main_arg0) (V c main_arg3) (V c main_v4) (iblk0 V c 0 t) (iblk0 V c 1 t) (iblk0 V c 2 t)
    p q (((cfg0.win 3).blk t).view.emb (ix2 p q)) (fun k => ?_) (fun k => ?_) ?_
  -- row p of x's block is the row of x that the result's block puts entry (p, q) in
  · show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  -- w's one block is w
  · show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  -- the bias row's one block is the bias row
  · show V c main_v4 (((cfg0.win 2).blk t).view.emb (ix2 0 q)) = _
    refine congrArg (V c main_v4) (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega

/-- An entry of the result lies in point t's block iff each coordinate lies in the block's range on its axis. -/
theorem mem_block (t : Fin cfg0.N) (i : S40000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v5).slice (win0_3.rect t)).set ↔ _
  rw [View.set_slice_whole, Rect.mem_set_unit]
  exact Iff.rfl

/-- Every entry of the result is written: row r lies in the block of point r / 5000. -/
theorem rows_covered (i : S40000x128.Idx) :
    ∃ t : Fin cfg0.N, (cfg0.win 3).flush t = true ∧ i ∈ ((cfg0.win 3).blk t).view.set := by
  have h0 : (i 0).val < 40000 := (i 0).isLt
  have h1 : (i 1).val < 128 := (i 1).isLt
  have ht : (i 0).val / 5000 < cfg0.N := by show (i 0).val / 5000 < 8; omega
  obtain ⟨-, -, -, -, -, -, e30, e31⟩ := block_indices ⟨(i 0).val / 5000, ht⟩
  refine ⟨⟨(i 0).val / 5000, ht⟩, flush0_3 _, ?_⟩
  rw [mem_block]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e31]; omega

/-- The result array after the region: the layer of x, w and the bias row as the region finds them. -/
theorem arr (V : (c : Dev nD) → (b : Ref sig .tc) → Buf (Elt Ideal) ((c : Thread nD τ).loc b)) (c : Dev nD) :
    (Gen.dat0 (F := Ideal) V c).arrAt 3 cfg0.N
      = Cert.Affine.affine (V c main_arg0) (V c main_arg3) (V c main_v4) :=
  (dat0 (F := Ideal) V c).arrAt_eq_of_cover 3 (Cert.Affine.affine (V c main_arg0) (V c main_arg3) (V c main_v4))
    (fun t _ => block_written V c t) rows_covered

end Cert.KernelIdeal.Region0

end
-- ==== Proof.Region1.lean ====
/-
  The affine layer of the program's region 1, from row blocks to the whole array.

  The layer out = x·w + bias runs over a grid of 64 points. Point t takes the 10000 rows of x that begin at row 10000·t,
  all of w and the whole bias row, and writes the 10000 rows of the result that begin at row 10000·t. Entry (r, c) of the
  layer needs row r of x, column c of w and entry c of the bias row, and nothing else: so what point t writes is its
  10000 rows of the layer of the WHOLE x. The row blocks fill the 640000 rows (row r lies in the block of point
  r / 10000), so the result array ends holding the layer of x, w and the bias row as the region finds them.
-/
import proofs.«180068_j22153441313372_1_alg».proof.Proof.Gen.KernelIdeal.Frame
import proofs.«180068_j22153441313372_1_alg».proof.Proof.Affine
import Idealize.ShloMosaic.Lib.Pipeline.Value
import Idealize.ShloMosaic.Lib.ValueIdx

set_option maxRecDepth 16384

noncomputable section

namespace Cert.KernelIdeal.Region1

open Idealize.ShloMosaic Idealize.ShloMosaic.TcCoe
open Idealize.ShloMosaic.Pipeline (Dat Cfg Window)
open Cert.KernelIdeal Cert.KernelIdeal.Gen Idealize.ShloMosaic.ValueIdx
open scoped BigOperators

/-- The body reads and writes its blocks from their first entry. -/
theorem zero_offsets : (![0, 0] : Fin 2 → Nat) = fun _ => 0 := funext fun a => by fin_cases a <;> rfl

/-- Where each window's block sits at grid point t: x's and the result's are row block t, w and the bias row are the
    one block there is. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What the body stores, at an entry, is the layer of the three blocks it loaded: a recast of an array to its own
    shape is the array, and what is left is the tiled text of the layer. -/
theorem layer_at (x0 : Vec Ideal S10000x64 .f32) (x1 : Vec Ideal S64x128 .f32) (x2 : Vec Ideal S1x128 .f32)
    (p : Fin 10000) (q : Fin 128) :
    k1_pay1 x0 x1 x2 (ix2 p q) = Cert.Affine.affine x0 x1 x2 (ix2 p q) := by
  unfold k1_pay1
  simpa only [shapeCast_self] using
    Cert.Affine.tiled_at dot_S10000x64_S64x128_S10000x128_1_0_0_1_n_n rfl rfl rfl rfl rfl rfl
      x0 x1 x2 bitsLt_bf16_f32 shapeCasts_S1x128_S1x128 broadcasts_S1x128_S10000x128 p q

/-- The layer of a row block, at (p, q), is the layer of the whole x at entry i, once row p of the block is row i 0 of
    x, column q of the block's w is column i 1 of w, and the bias entries agree. -/
theorem layer_of_block (X : Vec Ideal S640000x64 .f32) (W : Vec Ideal S64x128 .f32) (B : Vec Ideal S1x128 .f32)
    (x0 : Vec Ideal S10000x64 .f32) (x1 : Vec Ideal S64x128 .f32) (x2 : Vec Ideal S1x128 .f32)
    (p : Fin 10000) (q : Fin 128) (i : S640000x128.Idx)
    (hx : ∀ k : Fin 64, x0 (ix2 p k) = X (ix2 (i 0) k))
    (hw : ∀ k : Fin 64, x1 (ix2 k q) = W (ix2 k (i 1)))
    (hb : x2 (ix2 0 q) = B (ix2 0 (i 1))) :
    Cert.Affine.affine x0 x1 x2 (ix2 p q) = Cert.Affine.affine X W B i := by
  show (∑ k : Fin 64, x0 (ix2 p k) * x1 (ix2 k q)) + x2 (ix2 0 q)
      = (∑ k : Fin 64, X (ix2 (i 0) k) * W (ix2 k (i 1))) + B (ix2 0 (i 1))
  rw [hb]
  exact congrArg (· + B (ix2 0 (i 1))) (Finset.sum_congr rfl fun k _ => by rw [hx k, hw k])

/-- What grid point t writes back is its row block of the layer of the whole arrays. -/
theorem block_written (V : (c : Dev nD) → (b : Ref sig .tc) → Buf (Elt Ideal) ((c : Thread nD τ).loc b)) (c : Dev nD)
    (t : Fin cfg1.N) :
    (dat1 (F := Ideal) V c).flushed 3 t
      = ((cfg1.win 3).blk t).view.read (Elt Ideal)
          (Cert.Affine.affine (V c main_arg2) (V c main_arg5) (V c main_v6)) := by
  show (cfg1.win 3).cut (grid1.coords t) ((dat1 V c).after 3 t) = _
  rw [after1_3]
  unfold out1_3
  rw [View.canon_unit_zero zero_offsets]
  simp only [View.ld_unit_zero (S := S10000x64) zero_offsets, View.ld_unit_zero (S := S64x128) zero_offsets,
    View.ld_unit_zero (S := S1x128) zero_offsets]
  obtain ⟨e00, e01, e10, e11, e20, e21, e30, e31⟩ := block_indices t
  funext j
  obtain ⟨p, q, rfl⟩ : ∃ (p : Fin 10000) (q : Fin 128), j = ix2 p q := ⟨j 0, j 1, eq_ix2 j⟩
  refine (layer_at _ _ _ p q).trans ?_
  refine layer_of_block (V c main_arg2) (V c main_arg5) (V c main_v6) (iblk1 V c 0 t) (iblk1 V c 1 t) (iblk1 V c 2 t)
    p q (((cfg1.win 3).blk t).view.emb (ix2 p q)) (fun k => ?_) (fun k => ?_) ?_
  -- row p of x's block is the row of x that the result's block puts entry (p, q) in
  · show V c main_arg2 (((cfg1.win 0).blk t).view.emb (ix2 p k)) = _
    refine congrArg (V c main_arg2) (funext fun a => Fin.ext ?_)
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * k.val = k.val; omega
  -- w's one block is w
  · show V c main_arg5 (((cfg1.win 1).blk t).view.emb (ix2 k q)) = _
    refine congrArg (V c main_arg5) (funext fun a => Fin.ext ?_)
    match a with
    | ⟨0, _⟩ => show win1_1.index t (0 : Fin 2) * 64 + 1 * k.val = k.val; omega
    | ⟨1, _⟩ => show win1_1.index t (1 : Fin 2) * 128 + 1 * q.val = win1_3.index t (1 : Fin 2) * 128 + 1 * q.val; omega
  -- the bias row's one block is the bias row
  · show V c main_v6 (((cfg1.win 2).blk t).view.emb (ix2 0 q)) = _
    refine congrArg (V c main_v6) (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega

/-- An entry of the result lies in point t's block iff each coordinate lies in the block's range on its axis. -/
theorem mem_block (t : Fin cfg1.N) (i : S640000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v7).slice (win1_3.rect t)).set ↔ _
  rw [View.set_slice_whole, Rect.mem_set_unit]
  exact Iff.rfl

/-- Every entry of the result is written: row r lies in the block of point r / 10000. -/
theorem rows_covered (i : S640000x128.Idx) :
    ∃ t : Fin cfg1.N, (cfg1.win 3).flush t = true ∧ i ∈ ((cfg1.win 3).blk t).view.set := by
  have h0 : (i 0).val < 640000 := (i 0).isLt
  have h1 : (i 1).val < 128 := (i 1).isLt
  have ht : (i 0).val / 10000 < cfg1.N := by show (i 0).val / 10000 < 64; omega
  obtain ⟨-, -, -, -, -, -, e30, e31⟩ := block_indices ⟨(i 0).val / 10000, ht⟩
  refine ⟨⟨(i 0).val / 10000, ht⟩, flush1_3 _, ?_⟩
  rw [mem_block]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    rw [e30]; show (i 0).val / 10000 * 10000 ≤ (i 0).val ∧ (i 0).val < (i 0).val / 10000 * 10000 + 10000; omega
  | ⟨1, _⟩ =>
    show win1_3.index ⟨(i 0).val / 10000, ht⟩ (1 : Fin 2) * 128 ≤ (i 1).val
      ∧ (i 1).val < win1_3.index ⟨(i 0).val / 10000, ht⟩ (1 : Fin 2) * 128 + 128
    rw [e31]; omega

/-- The result array after the region: the layer of x, w and the bias row as the region finds them. -/
theorem arr (V : (c : Dev nD) → (b : Ref sig .tc) → Buf (Elt Ideal) ((c : Thread nD τ).loc b)) (c : Dev nD) :
    (Gen.dat1 (F := Ideal) V c).arrAt 3 cfg1.N
      = Cert.Affine.affine (V c main_arg2) (V c main_arg5) (V c main_v6) :=
  (dat1 (F := Ideal) V c).arrAt_eq_of_cover 3 (Cert.Affine.affine (V c main_arg2) (V c main_arg5) (V c main_v6))
    (fun t _ => block_written V c t) rows_covered

end Cert.KernelIdeal.Region1

end
-- ==== Proof.Region2.lean ====
/-
  The affine layer of the program's region 2, from row blocks to the whole array.

  The layer out = x·w + bias runs over a grid of 8 points. Point t takes the 5000 rows of x that begin at row 5000·t,
  all of w and the whole bias row, and writes the 5000 rows of the result that begin at row 5000·t. Entry (r, c) of the
  layer needs row r of x, column c of w and entry c of the bias row, and nothing else: so what point t writes is its
  5000 rows of the layer of the WHOLE x. The row blocks fill the 40000 rows (row r lies in the block of point
  r / 5000), so the result array ends holding the layer of x, w and the bias row as the region finds them.
-/
import proofs.«180068_j22153441313372_1_alg».proof.Proof.Gen.KernelIdeal.Frame
import proofs.«180068_j22153441313372_1_alg».proof.Proof.Affine
import Idealize.ShloMosaic.Lib.Pipeline.Value
import Idealize.ShloMosaic.Lib.ValueIdx

set_option maxRecDepth 16384

noncomputable section

namespace Cert.KernelIdeal.Region2

open Idealize.ShloMosaic Idealize.ShloMosaic.TcCoe
open Idealize.ShloMosaic.Pipeline (Dat Cfg Window)
open Cert.KernelIdeal Cert.KernelIdeal.Gen Idealize.ShloMosaic.ValueIdx
open scoped BigOperators

/-- The body reads and writes its blocks from their first entry. -/
theorem zero_offsets : (![0, 0] : Fin 2 → Nat) = fun _ => 0 := funext fun a => by fin_cases a <;> rfl

/-- Where each window's block sits at grid point t: x's and the result's are row block t, w and the bias row are the
    one block there is. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What the body stores, at an entry, is the layer of the three blocks it loaded: a recast of an array to its own
    shape is the array, and what is left is the tiled text of the layer. -/
theorem layer_at (x0 : Vec Ideal S5000x128 .f32) (x1 : Vec Ideal S128x128 .f32) (x2 : Vec Ideal S1x128 .f32)
    (p : Fin 5000) (q : Fin 128) :
    k2_pay1 x0 x1 x2 (ix2 p q) = Cert.Affine.affine x0 x1 x2 (ix2 p q) := by
  unfold k2_pay1
  simpa only [shapeCast_self] using
    Cert.Affine.tiled_at dot_S5000x128_S128x128_S5000x128_1_0_0_1_n_n rfl rfl rfl rfl rfl rfl
      x0 x1 x2 bitsLt_bf16_f32 shapeCasts_S1x128_S1x128 broadcasts_S1x128_S5000x128 p q

/-- The layer of a row block, at (p, q), is the layer of the whole x at entry i, once row p of the block is row i 0 of
    x, column q of the block's w is column i 1 of w, and the bias entries agree. -/
theorem layer_of_block (X : Vec Ideal S40000x128 .f32) (W : Vec Ideal S128x128 .f32) (B : Vec Ideal S1x128 .f32)
    (x0 : Vec Ideal S5000x128 .f32) (x1 : Vec Ideal S128x128 .f32) (x2 : Vec Ideal S1x128 .f32)
    (p : Fin 5000) (q : Fin 128) (i : S40000x128.Idx)
    (hx : ∀ k : Fin 128, x0 (ix2 p k) = X (ix2 (i 0) k))
    (hw : ∀ k : Fin 128, x1 (ix2 k q) = W (ix2 k (i 1)))
    (hb : x2 (ix2 0 q) = B (ix2 0 (i 1))) :
    Cert.Affine.affine x0 x1 x2 (ix2 p q) = Cert.Affine.affine X W B i := by
  show (∑ k : Fin 128, x0 (ix2 p k) * x1 (ix2 k q)) + x2 (ix2 0 q)
      = (∑ k : Fin 128, X (ix2 (i 0) k) * W (ix2 k (i 1))) + B (ix2 0 (i 1))
  rw [hb]
  exact congrArg (· + B (ix2 0 (i 1))) (Finset.sum_congr rfl fun k _ => by rw [hx k, hw k])

/-- What grid point t writes back is its row block of the layer of the whole arrays. -/
theorem block_written (V : (c : Dev nD) → (b : Ref sig .tc) → Buf (Elt Ideal) ((c : Thread nD τ).loc b)) (c : Dev nD)
    (t : Fin cfg2.N) :
    (dat2 (F := Ideal) V c).flushed 3 t
      = ((cfg2.win 3).blk t).view.read (Elt Ideal)
          (Cert.Affine.affine (V c main_v19) (V c main_arg7) (V c main_v20)) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31⟩ := block_indices t
  funext j
  obtain ⟨p, q, rfl⟩ : ∃ (p : Fin 5000) (q : Fin 128), j = ix2 p q := ⟨j 0, j 1, eq_ix2 j⟩
  refine (layer_at _ _ _ p q).trans ?_
  refine layer_of_block (V c main_v19) (V c main_arg7) (V c main_v20) (iblk2 V c 0 t) (iblk2 V c 1 t) (iblk2 V c 2 t)
    p q (((cfg2.win 3).blk t).view.emb (ix2 p q)) (fun k => ?_) (fun k => ?_) ?_
  -- row p of x's block is the row of x that the result's block puts entry (p, q) in
  · show V c main_v19 (((cfg2.win 0).blk t).view.emb (ix2 p k)) = _
    refine congrArg (V c main_v19) (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * k.val = k.val; omega
  -- w's one block is w
  · show V c main_arg7 (((cfg2.win 1).blk t).view.emb (ix2 k q)) = _
    refine congrArg (V c main_arg7) (funext fun a => Fin.ext ?_)
    match a with
    | ⟨0, _⟩ => show win2_1.index t (0 : Fin 2) * 128 + 1 * k.val = k.val; omega
    | ⟨1, _⟩ => show win2_1.index t (1 : Fin 2) * 128 + 1 * q.val = win2_3.index t (1 : Fin 2) * 128 + 1 * q.val; omega
  -- the bias row's one block is the bias row
  · show V c main_v20 (((cfg2.win 2).blk t).view.emb (ix2 0 q)) = _
    refine congrArg (V c main_v20) (funext fun a => Fin.ext ?_)
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega

/-- An entry of the result lies in point t's block iff each coordinate lies in the block's range on its axis. -/
theorem mem_block (t : Fin cfg2.N) (i : S40000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v21).slice (win2_3.rect t)).set ↔ _
  rw [View.set_slice_whole, Rect.mem_set_unit]
  exact Iff.rfl

/-- Every entry of the result is written: row r lies in the block of point r / 5000. -/
theorem rows_covered (i : S40000x128.Idx) :
    ∃ t : Fin cfg2.N, (cfg2.win 3).flush t = true ∧ i ∈ ((cfg2.win 3).blk t).view.set := by
  have h0 : (i 0).val < 40000 := (i 0).isLt
  have h1 : (i 1).val < 128 := (i 1).isLt
  have ht : (i 0).val / 5000 < cfg2.N := by show (i 0).val / 5000 < 8; omega
  obtain ⟨-, -, -, -, -, -, e30, e31⟩ := block_indices ⟨(i 0).val / 5000, ht⟩
  refine ⟨⟨(i 0).val / 5000, ht⟩, flush2_3 _, ?_⟩
  rw [mem_block]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win2_3.index ⟨(i 0).val / 5000, ht⟩ (1 : Fin 2) * 128 ≤ (i 1).val
      ∧ (i 1).val < win2_3.index ⟨(i 0).val / 5000, ht⟩ (1 : Fin 2) * 128 + 128
    rw [e31]; omega

/-- The result array after the region: the layer of x, w and the bias row as the region finds them. -/
theorem arr (V : (c : Dev nD) → (b : Ref sig .tc) → Buf (Elt Ideal) ((c : Thread nD τ).loc b)) (c : Dev nD) :
    (Gen.dat2 (F := Ideal) V c).arrAt 3 cfg2.N
      = Cert.Affine.affine (V c main_v19) (V c main_arg7) (V c main_v20) :=
  (dat2 (F := Ideal) V c).arrAt_eq_of_cover 3 (Cert.Affine.affine (V c main_v19) (V c main_arg7) (V c main_v20))
    (fun t _ => block_written V c t) rows_covered

end Cert.KernelIdeal.Region2

end
-- ==== Proof.Region3.lean ====
/-
  The affine layer of the program's region 3, from row blocks to the whole array.

  The layer out = x·w + bias runs over a grid of 64 points. Point t takes the 10000 rows of x that begin at row 10000·t,
  all of w and the whole bias row, and writes the 10000 rows of the result that begin at row 10000·t. Entry (r, c) of the
  layer needs row r of x, column c of w and entry c of the bias row, and nothing else: so what point t writes is its
  10000 rows of the layer of the WHOLE x. The row blocks fill the 640000 rows (row r lies in the block of point
  r / 10000), so the result array ends holding the layer of x, w and the bias row as the region finds them.
-/
import proofs.«180068_j22153441313372_1_alg».proof.Proof.Gen.KernelIdeal.Frame
import proofs.«180068_j22153441313372_1_alg».proof.Proof.Affine
import Idealize.ShloMosaic.Lib.Pipeline.Value
import Idealize.ShloMosaic.Lib.ValueIdx

set_option maxRecDepth 16384

noncomputable section

namespace Cert.KernelIdeal.Region3

open Idealize.ShloMosaic Idealize.ShloMosaic.TcCoe
open Idealize.ShloMosaic.Pipeline (Dat Cfg Window)
open Cert.KernelIdeal Cert.KernelIdeal.Gen Idealize.ShloMosaic.ValueIdx
open scoped BigOperators

/-- The body reads and writes its blocks from their first entry. -/
theorem zero_offsets : (![0, 0] : Fin 2 → Nat) = fun _ => 0 := funext fun a => by fin_cases a <;> rfl

/-- Where each window's block sits at grid point t: x's and the result's are row block t, w and the bias row are the
    one block there is. -/
theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What the body stores, at an entry, is the layer of the three blocks it loaded: a recast of an array to its own
    shape is the array, and what is left is the tiled text of the layer. -/
theorem layer_at (x0 : Vec Ideal S10000x64 .f32) (x1 : Vec Ideal S64x128 .f32) (x2 : Vec Ideal S1x128 .f32)
    (p : Fin 10000) (q : Fin 128) :
    k3_pay1 x0 x1 x2 (ix2 p q) = Cert.Affine.affine x0 x1 x2 (ix2 p q) := by
  unfold k3_pay1
  simpa only [shapeCast_self] using
    Cert.Affine.tiled_at dot_S10000x64_S64x128_S10000x128_1_0_0_1_n_n rfl rfl rfl rfl rfl rfl
      x0 x1 x2 bitsLt_bf16_f32 shapeCasts_S1x128_S1x128 broadcasts_S1x128_S10000x128 p q

/-- The layer of a row block, at (p, q), is the layer of the whole x at entry i, once row p of the block is row i 0 of
    x, column q of the block's w is column i 1 of w, and the bias entries agree. -/
theorem layer_of_block (X : Vec Ideal S640000x64 .f32) (W : Vec Ideal S64x128 .f32) (B : Vec Ideal S1x128 .f32)
    (x0 : Vec Ideal S10000x64 .f32) (x1 : Vec Ideal S64x128 .f32) (x2 : Vec Ideal S1x128 .f32)
    (p : Fin 10000) (q : Fin 128) (i : S640000x128.Idx)
    (hx : ∀ k : Fin 64, x0 (ix2 p k) = X (ix2 (i 0) k))
    (hw : ∀ k : Fin 64, x1 (ix2 k q) = W (ix2 k (i 1)))
    (hb : x2 (ix2 0 q) = B (ix2 0 (i 1))) :
    Cert.Affine.affine x0 x1 x2 (ix2 p q) = Cert.Affine.affine X W B i := by
  show (∑ k : Fin 64, x0 (ix2 p k) * x1 (ix2 k q)) + x2 (ix2 0 q)
      = (∑ k : Fin 64, X (ix2 (i 0) k) * W (ix2 k (i 1))) + B (ix2 0 (i 1))
  rw [hb]
  exact congrArg (· + B (ix2 0 (i 1))) (Finset.sum_congr rfl fun k _ => by rw [hx k, hw k])

/-- What grid point t writes back is its row block of the layer of the whole arrays. -/
theorem block_written (V : (c : Dev nD) → (b : Ref sig .tc) → Buf (Elt Ideal) ((c : Thread nD τ).loc b)) (c : Dev nD)
    (t : Fin cfg3.N) :
    (dat3 (F := Ideal) V c).flushed 3 t
      = ((cfg3.win 3).blk t).view.read (Elt Ideal)
          (Cert.Affine.affine (V c main_arg2) (V c main_arg9) (V c main_v22)) := by
  show (cfg3.win 3).cut (grid3.coords t) ((dat3 V c).after 3 t) = _
  rw [after3_3]
  unfold out3_3
  rw [View.canon_unit_zero zero_offsets]
  simp only [View.ld_unit_zero (S := S10000x64) zero_offsets, View.ld_unit_zero (S := S64x128) zero_offsets,
    View.ld_unit_zero (S := S1x128) zero_offsets]
  obtain ⟨e00, e01, e10, e11, e20, e21, e30, e31⟩ := block_indices t
  funext j
  obtain ⟨p, q, rfl⟩ : ∃ (p : Fin 10000) (q : Fin 128), j = ix2 p q := ⟨j 0, j 1, eq_ix2 j⟩
  refine (layer_at _ _ _ p q).trans ?_
  refine layer_of_block (V c main_arg2) (V c main_arg9) (V c main_v22) (iblk3 V c 0 t) (iblk3 V c 1 t) (iblk3 V c 2 t)
    p q (((cfg3.win 3).blk t).view.emb (ix2 p q)) (fun k => ?_) (fun k => ?_) ?_
  -- row p of x's block is the row of x that the result's block puts entry (p, q) in
  · show V c main_arg2 (((cfg3.win 0).blk t).view.emb (ix2 p k)) = _
    refine congrArg (V c main_arg2) (funext fun a => Fin.ext ?_)
    match a with
    | ⟨0, _⟩ => show win3_0.index t (0 : Fin 2) * 10000 + 1 * p.val = win3_3.index t (0 : Fin 2) * 10000 + 1 * p.val; omega
    | ⟨1, _⟩ => show win3_0.index t (1 : Fin 2) * 64 + 1 * k.val = k.val; omega
  -- w's one block is w
  · show V c main_arg9 (((cfg3.win 1).blk t).view.emb (ix2 k q)) = _
    refine congrArg (V c main_arg9) (funext fun a => Fin.ext ?_)
    match a with
    | ⟨0, _⟩ => show win3_1.index t (0 : Fin 2) * 64 + 1 * k.val = k.val; omega
    | ⟨1, _⟩ => show win3_1.index t (1 : Fin 2) * 128 + 1 * q.val = win3_3.index t (1 : Fin 2) * 128 + 1 * q.val; omega
  -- the bias row's one block is the bias row
  · show V c main_v22 (((cfg3.win 2).blk t).view.emb (ix2 0 q)) = _
    refine congrArg (V c main_v22) (funext fun a => Fin.ext ?_)
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega

/-- An entry of the result lies in point t's block iff each coordinate lies in the block's range on its axis. -/
theorem mem_block (t : Fin cfg3.N) (i : S640000x128.Idx) :
    i ∈ ((cfg3.win 3).blk t).view.set ↔ ∀ a : Fin 2, win3_3.index t a * S10000x128.size a ≤ (i a).val
      ∧ (i a).val < win3_3.index t a * S10000x128.size a + S10000x128.size a := by
  show i ∈ ((View.whole main_v23).slice (win3_3.rect t)).set ↔ _
  rw [View.set_slice_whole, Rect.mem_set_unit]
  exact Iff.rfl

/-- Every entry of the result is written: row r lies in the block of point r / 10000. -/
theorem rows_covered (i : S640000x128.Idx) :
    ∃ t : Fin cfg3.N, (cfg3.win 3).flush t = true ∧ i ∈ ((cfg3.win 3).blk t).view.set := by
  have h0 : (i 0).val < 640000 := (i 0).isLt
  have h1 : (i 1).val < 128 := (i 1).isLt
  have ht : (i 0).val / 10000 < cfg3.N := by show (i 0).val / 10000 < 64; omega
  obtain ⟨-, -, -, -, -, -, e30, e31⟩ := block_indices ⟨(i 0).val / 10000, ht⟩
  refine ⟨⟨(i 0).val / 10000, ht⟩, flush3_3 _, ?_⟩
  rw [mem_block]
  intro a
  match a with
  | ⟨0, _⟩ =>
    show win3_3.index ⟨(i 0).val / 10000, ht⟩ (0 : Fin 2) * 10000 ≤ (i 0).val
      ∧ (i 0).val < win3_3.index ⟨(i 0).val / 10000, ht⟩ (0 : Fin 2) * 10000 + 10000
    rw [e30]; show (i 0).val / 10000 * 10000 ≤ (i 0).val ∧ (i 0).val < (i 0).val / 10000 * 10000 + 10000; omega
  | ⟨1, _⟩ =>
    show win3_3.index ⟨(i 0).val / 10000, ht⟩ (1 : Fin 2) * 128 ≤ (i 1).val
      ∧ (i 1).val < win3_3.index ⟨(i 0).val / 10000, ht⟩ (1 : Fin 2) * 128 + 128
    rw [e31]; omega

/-- The result array after the region: the layer of x, w and the bias row as the region finds them. -/
theorem arr (V : (c : Dev nD) → (b : Ref sig .tc) → Buf (Elt Ideal) ((c : Thread nD τ).loc b)) (c : Dev nD) :
    (Gen.dat3 (F := Ideal) V c).arrAt 3 cfg3.N
      = Cert.Affine.affine (V c main_arg2) (V c main_arg9) (V c main_v22) :=
  (dat3 (F := Ideal) V c).arrAt_eq_of_cover 3 (Cert.Affine.affine (V c main_arg2) (V c main_arg9) (V c main_v22))
    (fun t _ => block_written V c t) rows_covered

end Cert.KernelIdeal.Region3

end
-- ==== Proof.Fold.lean ====
/-
  The tiled program's result buffer, read back through the run.

  The program is thirteen segments: host stretches and four tiled regions in turn. Its run is described by the
  buffer contents at each boundary between segments, W0 (the launch) to W13 (the return): across a host stretch the
  contents change by the stretch's operations, across a region the region's output array becomes what its
  write-backs leave and every other buffer keeps its contents. This module walks that chain backwards from the
  result buffer:

    * a buffer that no earlier stretch writes and that is no array of an earlier region still holds its launch
      contents (the arguments; the two rows cut from the edge list are computed once and then kept);
    * each region's output array is the affine layer of the three arrays the region finds (Region0 … Region3),
      and those three are arguments or a bias vector the host has just recast to a row;
    * the host stretches between them are one round of message passing, the maximum with zero, a second round,
      and the pooling (GlueKernel's conv, relu, pool).

  So the result is pool (conv h2 e2 edges) with h2 = x1·W2n + b2n, e2 = efeat·W2e + b2e,
  x1 = relu (conv h1 e1 edges), h1 = node·W1n + b1n, e1 = efeat·W1e + b1e.
-/
import proofs.«180068_j22153441313372_1_alg».proof.Proof.Gen.KernelIdeal.Frame
import proofs.«180068_j22153441313372_1_alg».proof.Proof.Affine
import proofs.«180068_j22153441313372_1_alg».proof.Proof.GlueKernel
import proofs.«180068_j22153441313372_1_alg».proof.Proof.Region0
import proofs.«180068_j22153441313372_1_alg».proof.Proof.Region1
import proofs.«180068_j22153441313372_1_alg».proof.Proof.Region2
import proofs.«180068_j22153441313372_1_alg».proof.Proof.Region3
import Idealize.ShloMosaic.Lib.StableHlo.Run

set_option maxRecDepth 16384

noncomputable section

namespace Cert.KernelIdeal.Fold

open Idealize.ShloMosaic Idealize.ShloMosaic.TcCoe Idealize.SL.Sem
open Cert.KernelIdeal Cert.KernelIdeal.Gen Cert.Affine

variable (m : (ℓ : Loc nD τ sig) → Buf (Elt Ideal) ℓ) (ρ : Dev nD → PrngReg) (c : Dev nD)

/-- Closes "no operation of these host stretches writes this buffer": every operation writes one literal reference,
    and it differs from the buffer's. -/
macro "kept" : tactic => `(tactic|
  exact List.forall_iff_forall_mem.mp (by
    simp only [hostOps0, hostOps1, hostOps2, hostOps2_1, hostOps2_2, hostOps3, hostOps4, hostOps4_1, hostOps4_2,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## The launch contents, by their literal types -/

abbrev node : FVec Ideal S40000x128 .f32 := m ((c : Thread nD τ).loc main_arg0)
abbrev edges : IVec S2x640000 32 := m ((c : Thread nD τ).loc main_arg1)
abbrev efeat : FVec Ideal S640000x64 .f32 := m ((c : Thread nD τ).loc main_arg2)
abbrev w1n : FVec Ideal S128x128 .f32 := m ((c : Thread nD τ).loc main_arg3)
abbrev b1n : FVec Ideal S128 .f32 := m ((c : Thread nD τ).loc main_arg4)
abbrev w1e : FVec Ideal S64x128 .f32 := m ((c : Thread nD τ).loc main_arg5)
abbrev b1e : FVec Ideal S128 .f32 := m ((c : Thread nD τ).loc main_arg6)
abbrev w2n : FVec Ideal S128x128 .f32 := m ((c : Thread nD τ).loc main_arg7)
abbrev b2n : FVec Ideal S128 .f32 := m ((c : Thread nD τ).loc main_arg8)
abbrev w2e : FVec Ideal S64x128 .f32 := m ((c : Thread nD τ).loc main_arg9)
abbrev b2e : FVec Ideal S128 .f32 := m ((c : Thread nD τ).loc main_arg10)

/-- A bias vector as the one-row matrix the layers take. -/
abbrev row (b : FVec Ideal S128 .f32) : FVec Ideal S1x128 .f32 := shapeCast S1x128 b shapeCasts_S128_S1x128
/-- The edge list's two rows, as read off the argument. -/
abbrev srcRaw : IVec S640000 32 :=
  shapeCast S640000 (extractStridedSlice S1x640000 ![0, 0] (edges m c) slices_S2x640000_S1x640000_0_0) shapeCasts_S1x640000_S640000
abbrev dstRaw : IVec S640000 32 :=
  shapeCast S640000 (extractStridedSlice S1x640000 ![1, 0] (edges m c) slices_S2x640000_S1x640000_1_0) shapeCasts_S1x640000_S640000

/-! ## The network's value, layer by layer -/

/-- First layer: node and edge embeddings. -/
def h1 : FVec Ideal S40000x128 .f32 := affine (R := 40000) (K := 128) (C := 128) (node m c) (w1n m c) (row (b1n m c))
def e1 : FVec Ideal S640000x128 .f32 := affine (R := 640000) (K := 64) (C := 128) (efeat m c) (w1e m c) (row (b1e m c))
/-- The hidden node features: one round of message passing, then the maximum with zero. -/
def x1 : FVec Ideal S40000x128 .f32 := Glue.relu (Glue.conv (h1 m c) (e1 m c) (edges m c))
/-- Second layer. -/
def h2 : FVec Ideal S40000x128 .f32 := affine (R := 40000) (K := 128) (C := 128) (x1 m c) (w2n m c) (row (b2n m c))
def e2 : FVec Ideal S640000x128 .f32 := affine (R := 640000) (K := 64) (C := 128) (efeat m c) (w2e m c) (row (b2e m c))
def x2 : FVec Ideal S40000x128 .f32 := Glue.conv (h2 m c) (e2 m c) (edges m c)
/-- The result: the pooled second-round features. -/
def out : FVec Ideal S128 .f32 := Glue.pool (x2 m c)

/-! ## A buffer nothing has written yet holds its launch contents

  One lemma per boundary, each taking the facts "this stretch does not write it" / "it is no array of this region"
  for everything before the boundary. -/

section Clean
variable (b : Ref sig .tc)

theorem c1 (h0 : ∀ op ∈ (hostOps0 : List (HloOp τ sig (Elt Ideal))), Proc.devRef .tc b ∉ op.writes) :
    W1 m ρ c (Proc.devRef .tc b) = m ((c : Thread nD τ).loc b) :=
  StableHlo.after_of_forall_not_mem _ _ h0
theorem c2 (h0 : ∀ op ∈ (hostOps0 : List (HloOp τ sig (Elt Ideal))), Proc.devRef .tc b ∉ op.writes)
    (r0 : ∀ w, Pipeline.arrRef spec0 w ≠ b) : W2 m ρ c (Proc.devRef .tc b) = m ((c : Thread nD τ).loc b) :=
  (W2_of_ne m ρ c b r0).trans (c1 m ρ c b h0)
theorem c3 (h0 : ∀ op ∈ (hostOps0 : List (HloOp τ sig (Elt Ideal))), Proc.devRef .tc b ∉ op.writes)
    (r0 : ∀ w, Pipeline.arrRef spec0 w ≠ b)
    (h1 : ∀ op ∈ (hostOps1 : List (HloOp τ sig (Elt Ideal))), Proc.devRef .tc b ∉ op.writes) :
    W3 m ρ c (Proc.devRef .tc b) = m ((c : Thread nD τ).loc b) :=
  (StableHlo.after_of_forall_not_mem _ _ h1).trans (c2 m ρ c b h0 r0)
theorem c4 (h0 : ∀ op ∈ (hostOps0 : List (HloOp τ sig (Elt Ideal))), Proc.devRef .tc b ∉ op.writes)
    (r0 : ∀ w, Pipeline.arrRef spec0 w ≠ b)
    (h1 : ∀ op ∈ (hostOps1 : List (HloOp τ sig (Elt Ideal))), Proc.devRef .tc b ∉ op.writes)
    (r1 : ∀ w, Pipeline.arrRef spec1 w ≠ b) : W4 m ρ c (Proc.devRef .tc b) = m ((c : Thread nD τ).loc b) :=
  (W4_of_ne m ρ c b r1).trans (c3 m ρ c b h0 r0 h1)

/-- From the second region's exit to the third's entry: three host stretches. -/
theorem s7 (h2 : ∀ op ∈ (hostOps2 : List (HloOp τ sig (Elt Ideal))), Proc.devRef .tc b ∉ op.writes)
    (h21 : ∀ op ∈ (hostOps2_1 : List (HloOp τ sig (Elt Ideal))), Proc.devRef .tc b ∉ op.writes)
    (h22 : ∀ op ∈ (hostOps2_2 : List (HloOp τ sig (Elt Ideal))), Proc.devRef .tc b ∉ op.writes) :
    W7 m ρ c (Proc.devRef .tc b) = W4 m ρ c (Proc.devRef .tc b) :=
  (StableHlo.after_of_forall_not_mem _ _ h22).trans
    ((StableHlo.after_of_forall_not_mem _ _ h21).trans (StableHlo.after_of_forall_not_mem _ _ h2))
/-- Across the third region and the reshape after it. -/
theorem s9 (r2 : ∀ w, Pipeline.arrRef spec2 w ≠ b)
    (h3 : ∀ op ∈ (hostOps3 : List (HloOp τ sig (Elt Ideal))), Proc.devRef .tc b ∉ op.writes) :
    W9 m ρ c (Proc.devRef .tc b) = W7 m ρ c (Proc.devRef .tc b) :=
  (StableHlo.after_of_forall_not_mem _ _ h3).trans (W8_of_ne m ρ c b r2)

end Clean

/-! ## What each region finds: the arguments, and the bias rows the host reshapes just before -/

theorem v1_node : V1 m ρ c main_arg0 = node m c := c1 m ρ c main_arg0 (by kept)
theorem v1_w1n : V1 m ρ c main_arg3 = w1n m c := c1 m ρ c main_arg3 (by kept)
theorem v1_bias : V1 m ρ c main_v4 = row (b1n m c) := by
  show StableHlo.after hostOps0 (W0 m ρ c) (Proc.devRef .tc main_v4) = _
  after_results_simp <;> rfl

theorem v3_efeat : V3 m ρ c main_arg2 = efeat m c := c3 m ρ c main_arg2 (by kept) (by decide) (by kept)
theorem v3_w1e : V3 m ρ c main_arg5 = w1e m c := c3 m ρ c main_arg5 (by kept) (by decide) (by kept)
theorem v3_bias : V3 m ρ c main_v6 = row (b1e m c) := by
  show StableHlo.after hostOps1 (W2 m ρ c) (Proc.devRef .tc main_v6) = _
  after_results_simp
  rw [c2 m ρ c main_arg6 (by kept) (by decide)]
  rfl

/-! ## The first two regions' results -/

theorem w2_h1 : W2 m ρ c (Proc.devRef .tc main_v5) = h1 m c :=
  (W2_arr m ρ c 3).trans ((Region0.arr (V1 m ρ) c).trans (by rw [v1_node, v1_w1n, v1_bias]; rfl))

theorem w4_e1 : W4 m ρ c (Proc.devRef .tc main_v7) = e1 m c :=
  (W4_arr m ρ c 3).trans ((Region1.arr (V3 m ρ) c).trans (by rw [v3_efeat, v3_w1e, v3_bias]; rfl))

theorem w4_h1 : W4 m ρ c (Proc.devRef .tc main_v5) = h1 m c :=
  (W4_of_ne m ρ c main_v5 (by decide)).trans ((StableHlo.after_of_forall_not_mem _ _ (by kept)).trans (w2_h1 m ρ c))

/-! ## The edge list's rows, read where the gathers and scatters find them -/

theorem w1_src : W1 m ρ c (Proc.devRef .tc main_v1) = srcRaw m c := by
  show StableHlo.after hostOps0 (W0 m ρ c) (Proc.devRef .tc main_v1) = _
  after_results_simp <;> rfl
theorem w1_dst : W1 m ρ c (Proc.devRef .tc main_v3) = dstRaw m c := by
  show StableHlo.after hostOps0 (W0 m ρ c) (Proc.devRef .tc main_v3) = _
  after_results_simp <;> rfl
theorem w4_src : W4 m ρ c (Proc.devRef .tc main_v1) = srcRaw m c :=
  (W4_of_ne m ρ c main_v1 (by decide)).trans ((StableHlo.after_of_forall_not_mem _ _ (by kept)).trans
    ((W2_of_ne m ρ c main_v1 (by decide)).trans (w1_src m ρ c)))
theorem w4_dst : W4 m ρ c (Proc.devRef .tc main_v3) = dstRaw m c :=
  (W4_of_ne m ρ c main_v3 (by decide)).trans ((StableHlo.after_of_forall_not_mem _ _ (by kept)).trans
    ((W2_of_ne m ρ c main_v3 (by decide)).trans (w1_dst m ρ c)))

/-! ## The first round of message passing and the hidden features -/

theorem w5_conv : W5 m ρ c (Proc.devRef .tc main_v18) = Glue.conv (h1 m c) (e1 m c) (edges m c) := by
  show StableHlo.after hostOps2 (W4 m ρ c) (Proc.devRef .tc main_v18) = _
  after_results_simp
  rw [w4_src, w4_dst, w4_h1, w4_e1]
  rfl

theorem w6_x1 : W6 m ρ c (Proc.devRef .tc main_v19) = x1 m c := by
  show StableHlo.after hostOps2_1 (W5 m ρ c) (Proc.devRef .tc main_v19) = _
  after_results_simp
  rw [w4_src, w4_dst, w4_h1, w4_e1]
  rfl

/-! ## What the third and fourth regions find -/

theorem v7_x1 : V7 m ρ c main_v19 = x1 m c :=
  (StableHlo.after_of_forall_not_mem _ _ (by kept)).trans (w6_x1 m ρ c)
theorem v7_w2n : V7 m ρ c main_arg7 = w2n m c :=
  (s7 m ρ c main_arg7 (by kept) (by kept) (by kept)).trans (c4 m ρ c main_arg7 (by kept) (by decide) (by kept) (by decide))
theorem v7_bias : V7 m ρ c main_v20 = row (b2n m c) := by
  show StableHlo.after hostOps2_2 (W6 m ρ c) (Proc.devRef .tc main_v20) = _
  after_results_simp
  rw [c4 m ρ c main_arg8 (by kept) (by decide) (by kept) (by decide)]
  rfl

/-- The edge features cross the second region as the input array they are there. -/
theorem w4_efeat : W4 m ρ c (Proc.devRef .tc main_arg2) = efeat m c :=
  (W4_arr m ρ c 0).trans ((((dat1 (V3 m ρ) c).arrAt_in 0 rfl _).trans (A_eq1 (V3 m ρ) c 0)).trans (v3_efeat m ρ c))

theorem v9_efeat : V9 m ρ c main_arg2 = efeat m c :=
  (s9 m ρ c main_arg2 (by decide) (by kept)).trans ((s7 m ρ c main_arg2 (by kept) (by kept) (by kept)).trans (w4_efeat m ρ c))
theorem v9_w2e : V9 m ρ c main_arg9 = w2e m c :=
  (s9 m ρ c main_arg9 (by decide) (by kept)).trans ((s7 m ρ c main_arg9 (by kept) (by kept) (by kept)).trans
    (c4 m ρ c main_arg9 (by kept) (by decide) (by kept) (by decide)))
theorem v9_bias : V9 m ρ c main_v22 = row (b2e m c) := by
  show StableHlo.after hostOps3 (W8 m ρ c) (Proc.devRef .tc main_v22) = _
  after_results_simp
  rw [(W8_of_ne m ρ c main_arg10 (by decide)).trans ((s7 m ρ c main_arg10 (by kept) (by kept) (by kept)).trans
    (c4 m ρ c main_arg10 (by kept) (by decide) (by kept) (by decide)))]
  rfl

/-! ## The last two regions' results -/

theorem w8_h2 : W8 m ρ c (Proc.devRef .tc main_v21) = h2 m c :=
  (W8_arr m ρ c 3).trans ((Region2.arr (V7 m ρ) c).trans (by rw [v7_x1, v7_w2n, v7_bias]; rfl))

theorem w10_e2 : W10 m ρ c (Proc.devRef .tc main_v23) = e2 m c :=
  (W10_arr m ρ c 3).trans ((Region3.arr (V9 m ρ) c).trans (by rw [v9_efeat, v9_w2e, v9_bias]; rfl))

theorem w10_h2 : W10 m ρ c (Proc.devRef .tc main_v21) = h2 m c :=
  (W10_of_ne m ρ c main_v21 (by decide)).trans ((StableHlo.after_of_forall_not_mem _ _ (by kept)).trans (w8_h2 m ρ c))

theorem w10_src : W10 m ρ c (Proc.devRef .tc main_v1) = srcRaw m c :=
  (W10_of_ne m ρ c main_v1 (by decide)).trans ((s9 m ρ c main_v1 (by decide) (by kept)).trans
    ((s7 m ρ c main_v1 (by kept) (by kept) (by kept)).trans (w4_src m ρ c)))
theorem w10_dst : W10 m ρ c (Proc.devRef .tc main_v3) = dstRaw m c :=
  (W10_of_ne m ρ c main_v3 (by decide)).trans ((s9 m ρ c main_v3 (by decide) (by kept)).trans
    ((s7 m ρ c main_v3 (by kept) (by kept) (by kept)).trans (w4_dst m ρ c)))

/-! ## The second round, the pooling, the result -/

theorem w11_x2 : W11 m ρ c (Proc.devRef .tc main_v34) = x2 m c := by
  show StableHlo.after hostOps4 (W10 m ρ c) (Proc.devRef .tc main_v34) = _
  after_results_simp
  rw [w10_src, w10_dst, w10_h2, w10_e2]
  rfl

/-- The rows' largest and smallest entries compared, as the last long stretch leaves them. -/
theorem w11_mask : W11 m ρ c (Proc.devRef .tc main_v38)
    = broadcastInDim S40000x1 ![0] bcast_S40000_S40000x1_0 (cmpf .une (Host.reduce FloatOps.maximumf (x2 m c) (constant S_ .f32 0xFF800000#32) reducesTo_S40000x128_S40000_d1 h_S_) (Host.reduce FloatOps.minimumf (x2 m c) (constant S_ .f32 0x7F800000#32) reducesTo_S40000x128_S40000_d1 h_S_)) := by
  show StableHlo.after hostOps4 (W10 m ρ c) (Proc.devRef .tc main_v38) = _
  after_results_simp
  rw [w10_src, w10_dst, w10_h2, w10_e2]
  rfl
theorem w11_zero : W11 m ρ c (Proc.devRef .tc main_cst_6) = constant (F := Ideal) S_ .f32 0x00000000#32 := by
  show StableHlo.after hostOps4 (W10 m ρ c) (Proc.devRef .tc main_cst_6) = _
  after_results_simp <;> rfl

/-- The last two stretches from any contents: the select by the mask and the sum over the rows. -/
theorem pool_of (X : Valuation τ sig (Elt Ideal)) :
    StableHlo.after hostOps4_2 (StableHlo.after hostOps4_1 X) (Proc.devRef .tc main_v40)
      = Host.reduceAdd (F := Ideal) (select (broadcastInDim S40000x128 ![0, 1] bcast_S40000x1_S40000x128_0_1 (X (Proc.devRef .tc main_v38))) (X (Proc.devRef .tc main_v34)) (broadcastInDim S40000x128 ![] bcast_S_S40000x128 (id (X (Proc.devRef .tc main_cst_6))))) (constant S_ .f32 0x00000000#32) reducesTo_S40000x128_S128_d0 h_S_ := by
  after_results_simp <;> rfl

/-- The result buffer at the last boundary is the network's value. -/
theorem w13_out : W13 m ρ c (Proc.devRef .tc main_v40) = out m c :=
  (pool_of (W11 m ρ c)).trans (by rw [w11_mask, w11_x2, w11_zero]; rfl)

end Cert.KernelIdeal.Fold

end
-- ==== Proof.GlueReference.lean ====
/-
  The host side of the network that both programs share, as three functions of whole arrays (here over the plain program's own shape names and dimension records).

  conv h e ei : one round of message passing. With src = ei[0, ·] and dst = ei[1, ·] (a negative source index is
      first shifted up by the number of nodes, 40000), edge j carries the message h[src j, ·] + e[j, ·], and node n
      receives the sum of the messages of the edges whose target is n, added into zeros.
  relu x      : the entrywise maximum with zero.
  pool x      : a node whose row is not constant (its largest entry differs from its smallest) keeps its row, any
      other node's row is replaced by zeros, and the rows are summed: one number per feature.
-/
import proofs.«180068_j22153441313372_1_alg».proof.Proof.Gen.ReferenceIdeal
import Idealize.ShloMosaic.PureOps.Ideal

noncomputable section

namespace Cert.ReferenceIdeal.Glue

open Idealize.ShloMosaic Cert.ReferenceIdeal Cert.ReferenceIdeal.Gen

/-- The source column of the edge list, negative entries shifted up by the node count. -/
def srcIdx (ei : IVec S2x640000 32) : IVec S640000 32 :=
  select (cmpi .slt (shapeCast _ (extractStridedSlice S1x640000 ![0, 0] ei slices_S2x640000_S1x640000_0_0) shapeCasts_S1x640000_S640000) (broadcastInDim S640000 ![] bcast_S_S640000 (constantI S_ 32 0#32))) (addi (shapeCast _ (extractStridedSlice S1x640000 ![0, 0] ei slices_S2x640000_S1x640000_0_0) shapeCasts_S1x640000_S640000) (broadcastInDim S640000 ![] bcast_S_S640000 (constantI S_ 32 40000#32))) (shapeCast _ (extractStridedSlice S1x640000 ![0, 0] ei slices_S2x640000_S1x640000_0_0) shapeCasts_S1x640000_S640000)

/-- The target column of the edge list. -/
def dstIdx (ei : IVec S2x640000 32) : IVec S640000 32 :=
  shapeCast _ (extractStridedSlice S1x640000 ![1, 0] ei slices_S2x640000_S1x640000_1_0) shapeCasts_S1x640000_S640000

/-- One round of message passing: gather the node rows at the sources, add the edge rows, scatter-add at the targets. -/
def conv (h : FVec Ideal S40000x128 .f32) (e : FVec Ideal S640000x128 .f32)
    (ei : IVec S2x640000 32) : FVec Ideal S40000x128 .f32 :=
  Host.scatterAdd (F := Ideal) scatter_S40000x128_S640000x1_S640000x128_1_0_0_1 (broadcastInDim S40000x128 ![] bcast_S_S40000x128 (constant S_ .f32 0x00000000#32)) (broadcastInDim S640000x1 ![0] bcast_S640000_S640000x1_0 (dstIdx ei)) (addf (Host.gather gather_S40000x128_S640000x1_S640000x128_1_0_n_n_0_1_1128 h (broadcastInDim S640000x1 ![0] bcast_S640000_S640000x1_0 (srcIdx ei))) e)

/-- The entrywise maximum with zero. -/
def relu (x : FVec Ideal S40000x128 .f32) : FVec Ideal S40000x128 .f32 :=
  maximumf (F := Ideal) x (broadcastInDim S40000x128 ![] bcast_S_S40000x128 (constant S_ .f32 0x00000000#32))

/-- Rows that are not constant are kept, the others zeroed, and the rows summed. -/
def pool (x : FVec Ideal S40000x128 .f32) : FVec Ideal S128 .f32 :=
  Host.reduceAdd (F := Ideal) (select (broadcastInDim S40000x128 ![0, 1] bcast_S40000x1_S40000x128_0_1 (broadcastInDim S40000x1 ![0] bcast_S40000_S40000x1_0 (cmpf .une (Host.reduce FloatOps.maximumf x (constant S_ .f32 0xFF800000#32) reducesTo_S40000x128_S40000_d1 h_S_) (Host.reduce FloatOps.minimumf x (constant S_ .f32 0x7F800000#32) reducesTo_S40000x128_S40000_d1 h_S_)))) x (broadcastInDim S40000x128 ![] bcast_S_S40000x128 (id (constant S_ .f32 0x00000000#32)))) (constant S_ .f32 0x00000000#32) reducesTo_S40000x128_S128_d0 h_S_

end Cert.ReferenceIdeal.Glue

end
-- ==== Proof.RefValue.lean ====
/-
  The plain program's result as the network's value, layer by layer.

  Its run leaves the result buffer at one composed term of the arguments. That term is: pool (conv h2 e2 edges)
  with h2 = x1·W2n + b2n, e2 = efeat·W2e + b2e, x1 = relu (conv h1 e1 edges), h1 = node·W1n + b1n and
  e1 = efeat·W1e + b1e, every "·" the host's matrix product and every "+ b" a rank-1 bias broadcast to a row and
  then down the rows. Each of the four layers is the affine value of Affine.lean at the bias recast to a one-row
  matrix; the rest of the term is left as it stands.
-/
import proofs.«180068_j22153441313372_1_alg».proof.Proof.Gen.ReferenceIdeal.Run
import proofs.«180068_j22153441313372_1_alg».proof.Proof.Affine
import proofs.«180068_j22153441313372_1_alg».proof.Proof.GlueReference

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Value Cert.Affine

variable (m : (ℓ : Loc nD τ sig) → Buf (Elt Ideal) ℓ) (c : Dev nD)

/-! ## The launch contents, by their literal types -/

abbrev node : FVec Ideal S40000x128 .f32 := m ((c.tc : Thread nD τ).loc main_arg0)
abbrev edges : IVec S2x640000 32 := m ((c.tc : Thread nD τ).loc main_arg1)
abbrev efeat : FVec Ideal S640000x64 .f32 := m ((c.tc : Thread nD τ).loc main_arg2)
abbrev w1n : FVec Ideal S128x128 .f32 := m ((c.tc : Thread nD τ).loc main_arg3)
abbrev b1n : FVec Ideal S128 .f32 := m ((c.tc : Thread nD τ).loc main_arg4)
abbrev w1e : FVec Ideal S64x128 .f32 := m ((c.tc : Thread nD τ).loc main_arg5)
abbrev b1e : FVec Ideal S128 .f32 := m ((c.tc : Thread nD τ).loc main_arg6)
abbrev w2n : FVec Ideal S128x128 .f32 := m ((c.tc : Thread nD τ).loc main_arg7)
abbrev b2n : FVec Ideal S128 .f32 := m ((c.tc : Thread nD τ).loc main_arg8)
abbrev w2e : FVec Ideal S64x128 .f32 := m ((c.tc : Thread nD τ).loc main_arg9)
abbrev b2e : FVec Ideal S128 .f32 := m ((c.tc : Thread nD τ).loc main_arg10)

theorem casts_row : S128.ShapeCasts S1x128 := by decide

/-- A bias vector as a one-row matrix. -/
abbrev row (b : FVec Ideal S128 .f32) : FVec Ideal S1x128 .f32 := shapeCast S1x128 b casts_row

/-! ## The two layer shapes as the plain program spells them -/

/-- A layer on the node rows: the host's product plus the bias broadcast to a row and down the rows. -/
def linNode (x : FVec Ideal S40000x128 .f32) (w : FVec Ideal S128x128 .f32) (b : FVec Ideal S128 .f32) : FVec Ideal S40000x128 .f32 :=
  addf (Host.dotGeneral dot_S40000x128_S128x128_S40000x128_1_0_0_1_n_n none x w) (broadcastInDim S40000x128 ![0, 1] bcast_S1x128_S40000x128_0_1 (broadcastInDim S1x128 ![1] bcast_S128_S1x128_1 b))
/-- A layer on the edge rows. -/
def linEdge (x : FVec Ideal S640000x64 .f32) (w : FVec Ideal S64x128 .f32) (b : FVec Ideal S128 .f32) : FVec Ideal S640000x128 .f32 :=
  addf (Host.dotGeneral dot_S640000x64_S64x128_S640000x128_1_0_0_1_n_n none x w) (broadcastInDim S640000x128 ![0, 1] bcast_S1x128_S640000x128_0_1 (broadcastInDim S1x128 ![1] bcast_S128_S1x128_1 b))

theorem linNode_eq (x : FVec Ideal S40000x128 .f32) (w : FVec Ideal S128x128 .f32) (b : FVec Ideal S128 .f32) :
    linNode x w b = affine (R := 40000) (K := 128) (C := 128) x w (row b) :=
  plain_eq dot_S40000x128_S128x128_S40000x128_1_0_0_1_n_n rfl rfl rfl rfl rfl rfl x w b _ _ _
theorem linEdge_eq (x : FVec Ideal S640000x64 .f32) (w : FVec Ideal S64x128 .f32) (b : FVec Ideal S128 .f32) :
    linEdge x w b = affine (R := 640000) (K := 64) (C := 128) x w (row b) :=
  plain_eq dot_S640000x64_S64x128_S640000x128_1_0_0_1_n_n rfl rfl rfl rfl rfl rfl x w b _ _ _

/-! ## The network's value, layer by layer -/

def h1 : FVec Ideal S40000x128 .f32 := affine (R := 40000) (K := 128) (C := 128) (node m c) (w1n m c) (row (b1n m c))
def e1 : FVec Ideal S640000x128 .f32 := affine (R := 640000) (K := 64) (C := 128) (efeat m c) (w1e m c) (row (b1e m c))
def x1 : FVec Ideal S40000x128 .f32 := Glue.relu (Glue.conv (h1 m c) (e1 m c) (edges m c))
def h2 : FVec Ideal S40000x128 .f32 := affine (R := 40000) (K := 128) (C := 128) (x1 m c) (w2n m c) (row (b2n m c))
def e2 : FVec Ideal S640000x128 .f32 := affine (R := 640000) (K := 64) (C := 128) (efeat m c) (w2e m c) (row (b2e m c))
def x2 : FVec Ideal S40000x128 .f32 := Glue.conv (h2 m c) (e2 m c) (edges m c)
def out : FVec Ideal S128 .f32 := Glue.pool (x2 m c)

/-- The run's composed term, with its four layers named. -/
theorem res_layers : res_main_v52 (F := Ideal) m c
    = Glue.pool (Glue.conv (linNode (Glue.relu (Glue.conv (linNode (node m c) (w1n m c) (b1n m c)) (linEdge (efeat m c) (w1e m c) (b1e m c)) (edges m c))) (w2n m c) (b2n m c)) (linEdge (efeat m c) (w2e m c) (b2e m c)) (edges m c)) := by
  unfold res_main_v52
  rfl

/-- The run's composed term is the network's value. -/
theorem res_eq : res_main_v52 (F := Ideal) m c = out m c := by
  rw [res_layers]
  simp only [linNode_eq, linEdge_eq]
  rfl

end Cert.ReferenceIdeal.RefValue

end
-- ==== Proof.lean ====
/-
  The certificate of a two-layer graph network: a tiled program (four row-blocked affine layers on the matrix unit,
  the gathers, scatter-adds and the pooling on the host) against its plain reference.

  Over the extended reals both compute, from node features, an edge list, edge features and four weight / bias pairs,

      pool (conv (x1·W2n + b2n) (efeat·W2e + b2e) edges),   x1 = relu (conv (node·W1n + b1n) (efeat·W1e + b1e) edges),

  where conv gathers node rows at the edges' sources, adds the edge rows and scatter-adds at the edges' targets, and
  pool zeroes the constant rows and sums the rest. The two programs differ only in how a layer x·W + b is computed:
  the tiled one rounds x and W to a narrower format (the identity on extended reals), multiplies block by block into
  a zero accumulator and adds the bias as a one-row matrix; the plain one takes one host product and broadcasts the
  bias. Entry by entry both are Σ_k x(r,k)·W(k,c) + b(c) (Affine.lean), with no use of finiteness, so the
  precondition is never opened. Everything else is the same text in both programs and is compared as it stands.

    * the three frames: the two tiled programs' are the generated frames; the reference's is its generated run with
      the result dropped;
    * preserves: the idealization rewrote nothing, the statement is True;
    * algebraic: the tiled program's run with its result buffer named (KernelRun), read back to the layered value
      (Fold, over the four regions' arrays Region0 … Region3); the reference's generated run, its composed term
      read as the same layered value (RefValue); the two values are one function of the arguments (value_eq).
-/
import proofs.«180068_j22153441313372_1_alg».proof.Defs
import proofs.«180068_j22153441313372_1_alg».proof.Proof.Gen.Kernel
import proofs.«180068_j22153441313372_1_alg».proof.Proof.Gen.Kernel.Skeleton
import proofs.«180068_j22153441313372_1_alg».proof.Proof.Gen.Kernel.Launch
import proofs.«180068_j22153441313372_1_alg».proof.Proof.Gen.Kernel.Points
import proofs.«180068_j22153441313372_1_alg».proof.Proof.Gen.Kernel.Frame
import proofs.«180068_j22153441313372_1_alg».proof.Proof.Gen.KernelIdeal
import proofs.«180068_j22153441313372_1_alg».proof.Proof.Gen.KernelIdeal.Skeleton
import proofs.«180068_j22153441313372_1_alg».proof.Proof.Gen.KernelIdeal.Launch
import proofs.«180068_j22153441313372_1_alg».proof.Proof.Gen.KernelIdeal.Points
import proofs.«180068_j22153441313372_1_alg».proof.Proof.Gen.KernelIdeal.Frame
import proofs.«180068_j22153441313372_1_alg».proof.Proof.Gen.ReferenceIdeal
import proofs.«180068_j22153441313372_1_alg».proof.Proof.Gen.ReferenceIdeal.Run
import proofs.«180068_j22153441313372_1_alg».proof.Proof.Gen.Pre_finite_inputs
import proofs.«180068_j22153441313372_1_alg».proof.Proof.KernelRun
import proofs.«180068_j22153441313372_1_alg».proof.Proof.Fold
import proofs.«180068_j22153441313372_1_alg».proof.Proof.RefValue
import Idealize.ShloMosaic.Adequacy
import Idealize.ShloMosaic.Init

set_option maxRecDepth 16384

noncomputable section

namespace Cert.Proof

open Idealize.ShloMosaic Idealize.SL.Sem

/-- The two layered values are one function of the eleven arguments: the shared host text is the same over either
    program's names for the shapes and dimension records, and a bias vector recast to a row is the same row. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.RefValue.out m' c = Cert.KernelIdeal.Fold.out m c := by
  simp only [Cert.ReferenceIdeal.RefValue.out, Cert.ReferenceIdeal.RefValue.x2, Cert.ReferenceIdeal.RefValue.h2,
    Cert.ReferenceIdeal.RefValue.e2, Cert.ReferenceIdeal.RefValue.x1, Cert.ReferenceIdeal.RefValue.h1,
    Cert.ReferenceIdeal.RefValue.e1, Cert.ReferenceIdeal.RefValue.node, Cert.ReferenceIdeal.RefValue.edges,
    Cert.ReferenceIdeal.RefValue.efeat, Cert.ReferenceIdeal.RefValue.w1n, Cert.ReferenceIdeal.RefValue.b1n,
    Cert.ReferenceIdeal.RefValue.w1e, Cert.ReferenceIdeal.RefValue.b1e, Cert.ReferenceIdeal.RefValue.w2n,
    Cert.ReferenceIdeal.RefValue.b2n, Cert.ReferenceIdeal.RefValue.w2e, Cert.ReferenceIdeal.RefValue.b2e,
    h0, h1, h2, h3, h4, h5, h6, h7, h8, h9, h10]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run, and both result buffers end at the layered value of
    the tiled program's arguments. -/
theorem algebraic : Cert.algebraic_KernelIdeal_ReferenceIdeal := by
  intro m ρ m' ρ' _ hagree
  refine ⟨fun c => Cert.KernelIdeal.Fold.out m c, ?_, ?_⟩
  · exact (θ_run Cert.KernelIdeal.defs _ _).mono
      (fun r h c => ⟨(h c).1.trans (Cert.KernelIdeal.Fold.w13_out m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10⟩ := hagree c
    exact (Cert.ReferenceIdeal.RefValue.res_eq m' c).trans (value_eq m m' c a0 a1 a2 a3 a4 a5 a6 a7 a8 a9 a10)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
